-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x8192 : Shape := ⟨2, ![8192, 8192]⟩
abbrev S2048x256 : Shape := ⟨2, ![2048, 256]⟩
abbrev S1024x256 : Shape := ⟨2, ![1024, 256]⟩
abbrev S2048x1024 : Shape := ⟨2, ![2048, 1024]⟩
abbrev S2048 : Shape := ⟨1, ![2048]⟩
abbrev S2048x1 : Shape := ⟨2, ![2048, 1]⟩
abbrev S1024 : Shape := ⟨1, ![1024]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S2048x1024, .f32⟩
  | .local _ .vmem, ⟨5, _⟩ => ⟨S2048x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S2048x256_S2048x256_0_0 : ∀ a, (![0, 0] : Fin 2 → Nat) a + S2048x256.size a ≤ S2048x256.size a
  h_S2048x256 : 0 < S2048x256.numel
  inb_S1024x256_S1024x256_0_0 : ∀ a, (![0, 0] : Fin 2 → Nat) a + S1024x256.size a ≤ S1024x256.size a
  h_S1024x256 : 0 < S1024x256.numel
  reduces_S2048x256_S2048 : S2048x256.Reduces [1] S2048
  shapeCasts_S2048_S2048x1 : S2048.ShapeCasts S2048x1
  reduces_S1024x256_S1024 : S1024x256.Reduces [1] S1024
  shapeCasts_S1024_S1x1024 : S1024.ShapeCasts S1x1024
  bitsLt_bf16_f32 : FTy.bits .bf16 < FTy.bits .f32
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x8192.size a
  hwx0_2 : ∀ i : grid0.Coords, EltTy.bits .f32 = 32 ∨ (Rect.block (s := S8192x8192) S2048x1024.size (cc0_transform_2 i) (hinb0_2 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 27
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x8192, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.LibPairwiseRbf.lean ====
/-
  Pairwise squared distances by the expansion ‖x‖² + ‖p‖² − 2·⟨x, p⟩, and the Gaussian of the distance, read one
  tile at a time over the extended reals.

  A kernel that tiles the rows of two matrices `X : [B, K]` and `P : [N, K]` computes, on a pair of row tiles
  `x : [R, K]` and `p : [S, K]`, the row norms `∑ₖ x(r,k)²` and `∑ₖ p(s,k)²` by a lane reduction (kept as a column
  `[R, 1]` and as a row `[1, S]`, both broadcast over the tile), the products `∑ₖ x(r,k)·p(s,k)` by a matrix unit
  (operands narrowed to bf16, accumulated into zeros, both operands contracted along their last axis), and then
  `exp (√(max (‖x‖² + ‖p‖² − 2·⟨x,p⟩) 0) · (−½))`. Over the extended reals narrowing is the identity and every sum is
  the textbook one, so entry `(r, s)` of the tile is the function `gauss` of the two row norms and the row product
  (`gauss_tile`); the same three numbers read off the whole matrices at rows `n r` and `l s` when the tiles' rows
  are those rows (`rbf_of_rows`). The plain program's form of the last step, `exp ((−√d) / 2)`, is the same number
  for every extended real `d` (`neg_div_two`: a sign moves through a product, and dividing by `2` is multiplying
  by `½`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

variable {R S K : ℕ}

/-! ## Row norms and row products of matrices of extended reals -/

/-- The squared norm of row `r`: `∑ₖ X(r,k)²`. -/
def rowSq (X : (⟨2, ![R, K]⟩ : Shape).Idx → EReal) (r : Fin R) : EReal :=
  ∑ k : Fin K, X (ix2 r k) * X (ix2 r k)

/-- The product of row `r` of `X` with row `s` of `P`: `∑ₖ X(r,k)·P(s,k)`. -/
def rowDot (X : (⟨2, ![R, K]⟩ : Shape).Idx → EReal) (P : (⟨2, ![S, K]⟩ : Shape).Idx → EReal) (r : Fin R) (s : Fin S) : EReal :=
  ∑ k : Fin K, X (ix2 r k) * P (ix2 s k)

/-- A row norm depends on that row only. -/
theorem rowSq_congr {R' : ℕ} (x : (⟨2, ![R, K]⟩ : Shape).Idx → EReal) (X : (⟨2, ![R', K]⟩ : Shape).Idx → EReal)
    (r : Fin R) (n : Fin R') (h : ∀ k, x (ix2 r k) = X (ix2 n k)) : rowSq x r = rowSq X n :=
  Finset.sum_congr rfl fun k _ => by rw [h k]

/-- A row product depends on those two rows only. -/
theorem rowDot_congr {R' S' : ℕ} (x : (⟨2, ![R, K]⟩ : Shape).Idx → EReal) (p : (⟨2, ![S, K]⟩ : Shape).Idx → EReal)
    (X : (⟨2, ![R', K]⟩ : Shape).Idx → EReal) (P : (⟨2, ![S', K]⟩ : Shape).Idx → EReal)
    (r : Fin R) (s : Fin S) (n : Fin R') (l : Fin S') (hx : ∀ k, x (ix2 r k) = X (ix2 n k)) (hp : ∀ k, p (ix2 s k) = P (ix2 l k)) :
    rowDot x p r s = rowDot X P n l :=
  Finset.sum_congr rfl fun k _ => by rw [hx k, hp k]

/-! ## The lane sum of squares, kept as a column or as a row -/

/-- A lane reduction of `x ⊙ x` along the last axis reads, at row `r`, that row's squared norm. -/
theorem sumSq_apply (x : FVec Ideal ⟨2, ![R, K]⟩ .f32) (h : (⟨2, ![R, K]⟩ : Shape).Reduces [1] ⟨1, ![R]⟩)
    (hφ : FKind.Formats .f32) (hacc : (0x00000000#32 : BitVec 32) = FKind.add.neutral .f32 hφ) (r : Fin R) :
    multiReduction .add [1] ⟨1, ![R]⟩ (mulf x x) 0x00000000#32 h hφ hacc (ix1 r) = rowSq x r := by
  rw [Ideal.multiReduction_add_single]
  refine Finset.sum_congr rfl fun k _ => ?_
  have e : h.lift (ix1 r) k = ix2 r k := funext fun a => Fin.ext (by match a with | ⟨0, _⟩ => rfl | ⟨1, _⟩ => rfl)
  rw [mulf_apply, e]
  rfl

/-- An `[a]` vector cast to the column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A product of two matrices along their last axes -/

/-- The dimension numbers `d` describe `X · Pᵀ` for `X : [R, K]`, `P : [S, K]`: one contracted index of extent `K`,
    the last axis of both operands; the result's row is the left operand's row and its column the right operand's row. -/
structure RowsDot (d : DotDims ⟨2, ![R, K]⟩ ⟨2, ![S, K]⟩ ⟨2, ![R, S]⟩) : Prop where
  rank : d.contr.rank = 1
  size : d.contr.size ⟨0, by omega⟩ = K
  l0 : ∀ (i : (⟨2, ![R, S]⟩ : Shape).Idx) (q : d.contr.Idx), (d.lhsIdx i q 0).val = (i 0).val
  l1 : ∀ (i : (⟨2, ![R, S]⟩ : Shape).Idx) (q : d.contr.Idx), (d.lhsIdx i q 1).val = (q ⟨0, by omega⟩).val
  r0 : ∀ (i : (⟨2, ![R, S]⟩ : Shape).Idx) (q : d.contr.Idx), (d.rhsIdx i q 0).val = (i 1).val
  r1 : ∀ (i : (⟨2, ![R, S]⟩ : Shape).Idx) (q : d.contr.Idx), (d.rhsIdx i q 1).val = (q ⟨0, by omega⟩).val

/-- The sum over the record's contraction index is the row product. -/
theorem RowsDot.sum_eq {d : DotDims ⟨2, ![R, K]⟩ ⟨2, ![S, K]⟩ ⟨2, ![R, S]⟩} (h : RowsDot d)
    (x : (⟨2, ![R, K]⟩ : Shape).Idx → EReal) (p : (⟨2, ![S, K]⟩ : Shape).Idx → EReal) (r : Fin R) (s : Fin S) :
    ∑ k : d.contr.Idx, x (d.lhsIdx (ix2 r s) k) * p (d.rhsIdx (ix2 r s) k) = rowDot x p r s := by
  unfold rowDot
  rw [← Equiv.sum_comp (contrEquiv1 d K h.rank h.size).symm]
  refine Finset.sum_congr rfl fun k _ => ?_
  have hk := contrEquiv1_symm_val d K h.rank h.size k
  have el : d.lhsIdx (ix2 r s) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r s) ((contrEquiv1 d K h.rank h.size).symm k) = ix2 s k := funext fun a => Fin.ext (by
    match a with
    | ⟨0, _⟩ => exact h.r0 _ _
    | ⟨1, _⟩ => exact (h.r1 _ _).trans hk)
  rw [el, er]

/-- A matrix unit's product of two narrowed operands into zeros, at `(r, s)`: the row product. -/
theorem matmul_rows_apply {d : DotDims ⟨2, ![R, K]⟩ ⟨2, ![S, K]⟩ ⟨2, ![R, S]⟩} (h : RowsDot d)
    (x : FVec Ideal ⟨2, ![R, K]⟩ .f32) (p : FVec Ideal ⟨2, ![S, K]⟩ .f32) (ht : FTy.bits .bf16 < FTy.bits .f32)
    (r : Fin R) (s : Fin S) :
    matmul d none (truncf .bf16 x ht) (truncf .bf16 p ht) (constant ⟨2, ![R, S]⟩ .f32 0x00000000#32) (ix2 r s)
      = rowDot x p r s := by
  simp only [matmul]
  rw [Ideal.matmul_constant_zero_apply]
  exact h.sum_eq (fun i => x i) (fun i => p i) r s

/-- The host's `dot_general` with the same dimension numbers, at `(r, s)`: the same row product. -/
theorem dotGeneral_rows_apply {d : DotDims ⟨2, ![R, K]⟩ ⟨2, ![S, K]⟩ ⟨2, ![R, S]⟩} (h : RowsDot d)
    (x : FVec Ideal ⟨2, ![R, K]⟩ .f32) (p : FVec Ideal ⟨2, ![S, K]⟩ .f32) (r : Fin R) (s : Fin S) :
    Host.dotGeneral d none x p (ix2 r s) = rowDot x p r s := by
  simp only [Host.dotGeneral]
  rw [Ideal.dotGeneral_apply]
  exact h.sum_eq (fun i => x i) (fun i => p i) r s

/-! ## The Gaussian of the distance -/

/-- `2.0` denotes the real `2`. -/
theorem ofBits_two : Ideal.ofBits .f32 0x40000000#32 = ((2 : ℝ) : EReal) := by
  simp [Ideal.ofBits, Ideal.ieee, -EReal.coe_mul]; norm_num

/-- `-0.5` denotes the real `-½`. -/
theorem ofBits_neg_half : Ideal.ofBits .f32 0xBF000000#32 = ((-(1 / 2) : ℝ) : EReal) := by
  simp [Ideal.ofBits, Ideal.ieee, -EReal.coe_mul]; norm_num

/-- Negating and then dividing by `2.0` is multiplying by `-0.5`, on every extended real. -/
theorem neg_div_two (s : EReal) :
    Ideal.div (-s) (Ideal.ofBits .f32 0x40000000#32) = s * Ideal.ofBits .f32 0xBF000000#32 := by
  rw [ofBits_two, ofBits_neg_half, Ideal.div_coe (by norm_num : (2 : ℝ) ≠ 0), EReal.coe_neg, neg_mul, mul_neg]

/-- From two squared norms `a`, `b` and a product `c`: `exp (√(max (a + b − 2·c) 0) · (−½))`. -/
def gauss (a b c : EReal) : EReal :=
  Ideal.exp (Ideal.sqrt (max (a + b - Ideal.ofBits .f32 0x40000000#32 * c) (Ideal.ofBits .f32 0x00000000#32))
    * Ideal.ofBits .f32 0xBF000000#32)

/-- The plain program's form — each norm a sum started from `0.0`, the square root negated and divided by `2.0` — is
    the same number. -/
theorem gauss_host (a b c : EReal) :
    Ideal.exp (Ideal.div (-Ideal.sqrt (max ((Ideal.ofBits .f32 0x00000000#32 + a) + (Ideal.ofBits .f32 0x00000000#32 + b)
        - Ideal.ofBits .f32 0x40000000#32 * c) (Ideal.ofBits .f32 0x00000000#32))) (Ideal.ofBits .f32 0x40000000#32))
      = gauss a b c := by
  unfold gauss
  rw [neg_div_two, Ideal.ofBits_zero_f32, zero_add, zero_add]

/-! ## One tile -/

/-- ENTRY `(r, s)` OF A TILE: the kernel's whole expression over the row tiles `x` and `p` is `gauss` of row `r`'s
    norm, row `s`'s norm and their product. -/
theorem gauss_tile {d : DotDims ⟨2, ![R, K]⟩ ⟨2, ![S, K]⟩ ⟨2, ![R, S]⟩} (hd : RowsDot d)
    (x : FVec Ideal ⟨2, ![R, K]⟩ .f32) (p : FVec Ideal ⟨2, ![S, K]⟩ .f32)
    (hrx : (⟨2, ![R, K]⟩ : Shape).Reduces [1] ⟨1, ![R]⟩) (hrp : (⟨2, ![S, K]⟩ : Shape).Reduces [1] ⟨1, ![S]⟩)
    (hφ : FKind.Formats .f32) (hacc : (0x00000000#32 : BitVec 32) = FKind.add.neutral .f32 hφ)
    (hcx : (⟨1, ![R]⟩ : Shape).ShapeCasts ⟨2, ![R, 1]⟩) (hcp : (⟨1, ![S]⟩ : Shape).ShapeCasts ⟨2, ![1, S]⟩)
    (hbx : (⟨2, ![R, 1]⟩ : Shape).Broadcasts ⟨2, ![R, S]⟩) (hbp : (⟨2, ![1, S]⟩ : Shape).Broadcasts ⟨2, ![R, S]⟩)
    (ht : FTy.bits .bf16 < FTy.bits .f32) (r : Fin R) (s : Fin S) :
    exp (mulf (sqrt (maximumf
        (subf (addf (broadcastTo ⟨2, ![R, S]⟩ (shapeCast ⟨2, ![R, 1]⟩ (multiReduction .add [1] ⟨1, ![R]⟩ (mulf x x) 0x00000000#32 hrx hφ hacc) hcx) hbx)
                    (broadcastTo ⟨2, ![R, S]⟩ (shapeCast ⟨2, ![1, S]⟩ (multiReduction .add [1] ⟨1, ![S]⟩ (mulf p p) 0x00000000#32 hrp hφ hacc) hcp) hbp))
              (mulf (broadcast ⟨2, ![R, S]⟩ (Scalar.ofBits .f32 0x40000000#32))
                    (matmul d none (truncf .bf16 x ht) (truncf .bf16 p ht) (constant ⟨2, ![R, S]⟩ .f32 0x00000000#32))))
        (broadcast ⟨2, ![R, S]⟩ (Scalar.ofBits .f32 0x00000000#32))))
      (broadcast ⟨2, ![R, S]⟩ (Scalar.ofBits .f32 0xBF000000#32))) (ix2 r s)
    = gauss (rowSq x r) (rowSq p s) (rowDot x p r s) := by
  have hA : broadcastTo ⟨2, ![R, S]⟩ (shapeCast ⟨2, ![R, 1]⟩ (multiReduction .add [1] ⟨1, ![R]⟩ (mulf x x) 0x00000000#32 hrx hφ hacc) hcx) hbx (ix2 r s)
      = rowSq x r := by
    rw [broadcastTo_a1_ab_apply, shapeCast_a_a1_apply, sumSq_apply]
  have hB : broadcastTo ⟨2, ![R, S]⟩ (shapeCast ⟨2, ![1, S]⟩ (multiReduction .add [1] ⟨1, ![S]⟩ (mulf p p) 0x00000000#32 hrp hφ hacc) hcp) hbp (ix2 r s)
      = rowSq p s := by
    rw [broadcastTo_1b_ab_apply, shapeCast_a_1a_apply, sumSq_apply]
  have hC := matmul_rows_apply hd x p ht r s
  unfold gauss
  rw [← hA, ← hB, ← hC]
  rfl

/-! ## The whole result -/

/-- The whole `[B, N]` result as one function of the two matrices: entry `(b, n)` is `gauss` of row `b` of `X`, row
    `n` of `P`. -/
def rbf {B N : ℕ} (X : (⟨2, ![B, K]⟩ : Shape).Idx → EReal) (P : (⟨2, ![N, K]⟩ : Shape).Idx → EReal) :
    (⟨2, ![B, N]⟩ : Shape).Idx → EReal :=
  fun i => gauss (rowSq X (i 0)) (rowSq P (i 1)) (rowDot X P (i 0) (i 1))

/-- A tile's entry is the whole result's entry at the rows the tile's rows are. -/
theorem rbf_of_rows {B N : ℕ} (x : (⟨2, ![R, K]⟩ : Shape).Idx → EReal) (p : (⟨2, ![S, K]⟩ : Shape).Idx → EReal)
    (X : (⟨2, ![B, K]⟩ : Shape).Idx → EReal) (P : (⟨2, ![N, K]⟩ : Shape).Idx → EReal)
    (r : Fin R) (s : Fin S) (n : Fin B) (l : Fin N)
    (hx : ∀ k, x (ix2 r k) = X (ix2 n k)) (hp : ∀ k, p (ix2 s k) = P (ix2 l k)) :
    gauss (rowSq x r) (rowSq p s) (rowDot x p r s) = rbf X P (ix2 n l) := by
  show _ = gauss (rowSq X n) (rowSq P l) (rowDot X P n l)
  rw [rowSq_congr x X r n hx, rowSq_congr p P s l hp, rowDot_congr x p X P r s n l hx hp]

end Cert.Lib

end
-- ==== Proof.RbfTile.lean ====
/-
  One tile of the kernel, at the ideal values.

  At a grid point the kernel holds a row tile `x0 : [2048, 256]` of `x` and a row tile `x1 : [1024, 256]` of the
  prototypes and stores one `[2048, 1024]` tile. Its matrix product contracts the last axis of both tiles, so entry
  `(p, q)` of the product is the product of row `p` of `x0` with row `q` of `x1`; with the two lane sums of squares
  the stored entry `(p, q)` is `gauss (‖x0 p‖²) (‖x1 q‖²) ⟨x0 p, x1 q⟩`.
-/
import proofs.«133088_j16690242912928_1_alg».proof.Proof.Gen.KernelIdeal.Skeleton
import proofs.«133088_j16690242912928_1_alg».proof.Proof.LibPairwiseRbf

noncomputable section

namespace Cert.KernelIdeal.Tile

open Cert.KernelIdeal Cert.KernelIdeal.Gen Idealize.ShloMosaic Idealize.ShloMosaic.ValueIdx

/-! ## The tile product's dimension numbers: rows against rows -/

theorem lhs_tile_0 (i : S2048x1024.Idx) (q : dot_S2048x256_S1024x256_S2048x1024_1_1_0_0_n_n.contr.Idx) :
    (dot_S2048x256_S1024x256_S2048x1024_1_1_0_0_n_n.lhsIdx i q 0).val = (i 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl
theorem lhs_tile_1 (i : S2048x1024.Idx) (q : dot_S2048x256_S1024x256_S2048x1024_1_1_0_0_n_n.contr.Idx) :
    (dot_S2048x256_S1024x256_S2048x1024_1_1_0_0_n_n.lhsIdx i q 1).val = (q ⟨0, by decide⟩).val :=
  dot_S2048x256_S1024x256_S2048x1024_1_1_0_0_n_n.lhsIdx_val_of_single rfl i q
theorem rhs_tile_0 (i : S2048x1024.Idx) (q : dot_S2048x256_S1024x256_S2048x1024_1_1_0_0_n_n.contr.Idx) :
    (dot_S2048x256_S1024x256_S2048x1024_1_1_0_0_n_n.rhsIdx i q 0).val = (i 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl
theorem rhs_tile_1 (i : S2048x1024.Idx) (q : dot_S2048x256_S1024x256_S2048x1024_1_1_0_0_n_n.contr.Idx) :
    (dot_S2048x256_S1024x256_S2048x1024_1_1_0_0_n_n.rhsIdx i q 1).val = (q ⟨0, by decide⟩).val :=
  dot_S2048x256_S1024x256_S2048x1024_1_1_0_0_n_n.rhsIdx_val_of_single rfl i q

/-- The tile's product is rows against rows over 256 columns. -/
theorem rowsDot_tile : Cert.Lib.RowsDot dot_S2048x256_S1024x256_S2048x1024_1_1_0_0_n_n :=
  ⟨rfl, rfl, lhs_tile_0, lhs_tile_1, rhs_tile_0, rhs_tile_1⟩

/-! ## The stored tile, entry by entry -/

/-- Entry `(p, q)` of what a grid point stores, from the two row tiles it loaded. -/
theorem pay_apply (x0 : Vec Ideal S2048x256 .f32) (x1 : Vec Ideal S1024x256 .f32) (p : Fin 2048) (q : Fin 1024) :
    k0_pay1 (F := Ideal) x0 x1 (ix2 p q)
      = Cert.Lib.gauss (Cert.Lib.rowSq x0 p) (Cert.Lib.rowSq x1 q) (Cert.Lib.rowDot x0 x1 p q) := by
  unfold k0_pay1
  exact Cert.Lib.gauss_tile rowsDot_tile x0 x1 _ _ _ _ _ _ _ _ _ p q

end Cert.KernelIdeal.Tile

end
-- ==== Proof.RbfValue.lean ====
/-
  From tiles to the whole result, at the ideal values.

  The grid is 4 × 8: point `(i, j)` loads rows `2048·i …` of `x` and rows `1024·j …` of the prototypes and writes back
  the `[2048, 1024]` tile at block `(i, j)` of the `[8192, 8192]` result. Entry `(p, q)` of that tile is `gauss` of row
  `p` of the first tile and row `q` of the second, which are rows `2048·i + p` of `x` and `1024·j + q` of the
  prototypes: the entry is the whole result `rbf x prototypes` at `(2048·i + p, 1024·j + q)`, the index of the array
  under that entry of the block. The 32 blocks tile the array, so the array ends at `rbf x prototypes`.
-/
import proofs.«133088_j16690242912928_1_alg».proof.Proof.Gen.KernelIdeal.Value
import proofs.«133088_j16690242912928_1_alg».proof.Proof.RbfTile
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## Which blocks a grid point touches -/

/-- Over the 32 grid points: the first input's row block is the output's row block, the second input's row block is
    the output's column block, both inputs take all 256 columns, and the output's block indices stay below 4 and 8. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3 ∧ win0_2.index t (1 : Fin 2) ≤ 7 :=
  (by decide +kernel : ∀ t : Fin grid0.N, _)

/-- Every block of the 4 × 8 box is some point's. -/
theorem idx_onto : ∀ (q0 : Fin 4) (q1 : Fin 8), ∃ t : Fin cfg0.N, win0_2.index t = ![q0.val, q1.val] :=
  (by decide +kernel : ∀ (q0 : Fin 4) (q1 : Fin 8), ∃ t : Fin grid0.N, win0_2.index t = ![q0.val, q1.val])

/-! ## The input tiles as rows of the arguments -/

/-- Entry `y` of the first input's tile at point `t` is `x` at row `2048·(row block) + y₀`, column `y₁`. -/
theorem xtile_apply (c : Dev nD) (t : Fin cfg0.N) (y : S2048x256.Idx) (i : S8192x256.Idx)
    (h0 : (i 0).val = win0_0.index t (0 : Fin 2) * 2048 + (y 0).val) (h1 : (i 1).val = (y 1).val) :
    (iblk m c 0 t : Vec Ideal S2048x256 .f32) y = (V m c main_arg0 : S8192x256.Idx → EReal) i := by
  obtain ⟨_, e1, _, _, _, _⟩ := idx_facts t
  unfold iblk
  rw [View.read_apply]
  show V m c main_arg0 _ = V m c main_arg0 _
  congr 1
  funext a
  apply Fin.ext
  match a with
  | ⟨0, _⟩ => show win0_0.index t (0 : Fin 2) * 2048 + 1 * (y 0).val = (i 0).val; omega
  | ⟨1, _⟩ => show win0_0.index t (1 : Fin 2) * 256 + 1 * (y 1).val = (i 1).val; omega

/-- Entry `y` of the second input's tile at point `t` is the prototypes at row `1024·(row block) + y₀`, column `y₁`. -/
theorem ptile_apply (c : Dev nD) (t : Fin cfg0.N) (y : S1024x256.Idx) (i : S8192x256.Idx)
    (h0 : (i 0).val = win0_1.index t (0 : Fin 2) * 1024 + (y 0).val) (h1 : (i 1).val = (y 1).val) :
    (iblk m c 1 t : Vec Ideal S1024x256 .f32) y = (V m c main_arg1 : S8192x256.Idx → EReal) i := by
  obtain ⟨_, _, _, e3, _, _⟩ := idx_facts t
  unfold iblk
  rw [View.read_apply]
  show V m c main_arg1 _ = V m c main_arg1 _
  congr 1
  funext a
  apply Fin.ext
  match a with
  | ⟨0, _⟩ => show win0_1.index t (0 : Fin 2) * 1024 + 1 * (y 0).val = (i 0).val; omega
  | ⟨1, _⟩ => show win0_1.index t (1 : Fin 2) * 256 + 1 * (y 1).val = (i 1).val; omega

/-! ## What a point writes back -/

/-- An entry of a stored tile is the whole result at `i`, once the tile rows under it are rows `i₀` of `X` and `i₁` of `P`. -/
theorem tile_entry (X P : S8192x256.Idx → EReal) (x0 : Vec Ideal S2048x256 .f32) (x1 : Vec Ideal S1024x256 .f32)
    (y : S2048x1024.Idx) (i : S8192x8192.Idx)
    (hx : ∀ k : Fin 256, x0 (ix2 (y 0) k) = X (ix2 (i 0) k))
    (hp : ∀ k : Fin 256, x1 (ix2 (y 1) k) = P (ix2 (i 1) k)) :
    k0_pay1 (F := Ideal) x0 x1 y = Cert.Lib.rbf X P i := by
  obtain ⟨p, q, rfl⟩ : ∃ (p : Fin 2048) (q : Fin 1024), y = ix2 p q := ⟨y 0, y 1, eq_ix2 y⟩
  obtain ⟨b, n, rfl⟩ : ∃ (b : Fin 8192) (n : Fin 8192), i = ix2 b n := ⟨i 0, i 1, eq_ix2 i⟩
  rw [Cert.KernelIdeal.Tile.pay_apply]
  exact Cert.Lib.rbf_of_rows x0 x1 X P p q b n hx hp

/-- The whole result as the region finds the arguments. -/
abbrev result (c : Dev nD) : S8192x8192.Idx → EReal :=
  Cert.Lib.rbf (V m c main_arg0 : S8192x256.Idx → EReal) (V m c main_arg1 : S8192x256.Idx → EReal)

/-- WHAT POINT `t` WRITES BACK is block `t` of the whole result. -/
theorem flushed_eq (c : Dev nD) (t : Fin cfg0.N) :
    (dats m 0 c).flushed 2 t = ((cfg0.win 2).blk t).view.read (Elt Ideal) (result m c) := by
  rw [Cert.KernelIdeal.Value.flushed2]
  unfold out0_2
  rw [View.canon_unit_zero hz]
  simp only [View.ld_unit_zero (S := S2048x256) hz, View.ld_unit_zero (S := S1024x256) hz]
  obtain ⟨e0, e1, e2, e3, e4, e5⟩ := idx_facts t
  funext j
  show k0_pay1 (F := Ideal) (iblk m c 0 t) (iblk m c 1 t) j = result m c (((cfg0.win 2).blk t).view.emb j)
  refine tile_entry (V m c main_arg0) (V m c main_arg1) (iblk m c 0 t) (iblk m c 1 t) j (((cfg0.win 2).blk t).view.emb j)
    (fun k => ?_) (fun k => ?_)
  · refine xtile_apply m c t (ix2 (j 0) k) (ix2 ((((cfg0.win 2).blk t).view.emb j) 0) k) ?_ rfl
    show win0_2.index t (0 : Fin 2) * 2048 + 1 * (j 0).val = win0_0.index t (0 : Fin 2) * 2048 + (j 0).val
    omega
  · refine ptile_apply m c t (ix2 (j 1) k) (ix2 ((((cfg0.win 2).blk t).view.emb j) 1) k) ?_ rfl
    show win0_2.index t (1 : Fin 2) * 1024 + 1 * (j 1).val = win0_1.index t (0 : Fin 2) * 1024 + (j 1).val
    omega

/-! ## The blocks tile the array -/

/-- An index of the array is in point `t`'s block iff each coordinate is in the block's range on its axis. -/
theorem mem_blk (t : Fin cfg0.N) (i : S8192x8192.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v0).slice (win0_2.rect t)).set ↔ _
  rw [View.set_slice_whole, Rect.mem_set_unit]
  exact Iff.rfl

/-- Every index of the result is in the block of the point `(i₀ / 2048, i₁ / 1024)`. -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 2048, by omega⟩ ⟨(i 1).val / 1024, by omega⟩
  have q0 : win0_2.index t (0 : Fin 2) = (i 0).val / 2048 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

/-- THE ARRAY after the run is the whole result. -/
theorem final (c : Dev nD) : (dats m 0 c).arrAt 2 cfg0.N = result m c :=
  (dats m 0 c).arrAt_eq_of_cover 2 (result m c) (fun t _ => flushed_eq m c t) cover

/-! ## The run, read -/

/-- Every weakly fair execution of the kernel's program ends with the result array at `rbf` of the two arguments, the
    arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Whole

end
-- ==== Proof.RbfRef.lean ====
/-
  The plain program's result as one function of the two matrices.

  Entry `(b, n)` of the reference's last value is `exp ((−√(max ((0 + ∑ₖ x(b,k)²) + (0 + ∑ₖ p(n,k)²) − 2·∑ₖ x(b,k)·p(n,k)) 0)) / 2)`:
  each stage read at an index sends `(b, n)` to row `b` of `x` and row `n` of the prototypes. That number is
  `gauss ‖x b‖² ‖p n‖² ⟨x b, p n⟩`.
-/
import proofs.«133088_j16690242912928_1_alg».proof.Proof.Gen.ReferenceIdeal.Read
import proofs.«133088_j16690242912928_1_alg».proof.Proof.LibPairwiseRbf

noncomputable section

namespace Cert.ReferenceIdeal.Whole

open Cert.ReferenceIdeal Cert.ReferenceIdeal.Gen Cert.ReferenceIdeal.Read Idealize.ShloMosaic Idealize.ShloMosaic.ValueIdx

/-- The reference's result is `rbf` of its two arguments. -/
theorem ref_eq (X P : (⟨S8192x256, .f32⟩ : BufTy).Contents (Elt Ideal)) :
    val_main_v19 (F := Ideal) X P = Cert.Lib.rbf X P := by
  funext i
  obtain ⟨b, n, rfl⟩ : ∃ (b : Fin 8192) (n : Fin 8192), i = ix2 b n := ⟨i 0, i 1, eq_ix2 i⟩
  have eX : ∀ k : Fin 256, idx_main_v1 (idx_main_v2 (idx_main_v7 (ix2 b n))) k = ix2 b k := fun k =>
    funext fun a => Fin.ext (by match a with | ⟨0, _⟩ => rfl | ⟨1, _⟩ => rfl)
  have eP : ∀ k : Fin 256, idx_main_v4 (idx_main_v6 (idx_main_v8 (ix2 b n))) k = ix2 n k := fun k =>
    funext fun a => Fin.ext (by match a with | ⟨0, _⟩ => rfl | ⟨1, _⟩ => rfl)
  have eL : ∀ k : Fin 256, lidx_main_v5 (ix2 b n) k = ix2 b k := fun k =>
    funext fun a => Fin.ext (by match a with | ⟨0, _⟩ => rfl | ⟨1, _⟩ => rfl)
  have eR : ∀ k : Fin 256, ridx_main_v5 (ix2 b n) k = ix2 n k := fun k =>
    funext fun a => Fin.ext (by match a with | ⟨0, _⟩ => rfl | ⟨1, _⟩ => rfl)
  rw [val_main_v19_apply, val_main_v18_apply, val_main_v17_apply, val_main_cst_3_apply, val_main_v16_apply,
    val_main_v15_apply, val_main_v14_apply, val_main_v13_apply, val_main_cst_2_apply, val_main_v12_apply,
    val_main_v11_apply, val_main_v10_apply, val_main_cst_1_apply, val_main_v5_apply, val_main_v9_apply,
    val_main_v7_apply, val_main_v2_apply, val_main_v1_apply, val_main_v8_apply, val_main_v6_apply, val_main_v4_apply,
    val_main_cst_apply, val_main_cst_0_apply]
  simp only [val_main_v0_apply, val_main_v3_apply, eX, eP, eL, eR, Ideal.ofBits_def, Ideal.mulf_def, Ideal.addf_def,
    Ideal.subf_def, Ideal.maximumf_def, Ideal.hostUnary_sqrt_def, Ideal.hostUnary_exp_def, Ideal.hostNegf_def,
    Ideal.negf_def, Ideal.hostDivf_def]
  show _ = Cert.Lib.gauss (Cert.Lib.rowSq X b) (Cert.Lib.rowSq P n) (Cert.Lib.rowDot X P b n)
  exact Cert.Lib.gauss_host _ _ _

end Cert.ReferenceIdeal.Whole

end
-- ==== Proof.lean ====
/-
  A Gaussian (RBF) layer: `exp (−‖x_b − p_n‖ / 2)` for every row `x_b` of `x : [8192, 256]` and every prototype
  `p_n : [256]` of `prototypes : [8192, 256]`, the distance taken as `√(max (‖x_b‖² + ‖p_n‖² − 2·⟨x_b, p_n⟩) 0)`.

  The kernel tiles the `[8192, 8192]` result 4 × 8; on each tile it takes the row norms by a lane sum, the products by a
  matrix unit on operands narrowed to bf16, and multiplies the distance by `−0.5`. The plain program takes the norms by a
  host sum started from `0.0`, the products by one `dot_general`, and divides the negated distance by `2.0`. Over the
  extended reals narrowing is the identity, every sum is the textbook sum whatever its order or tiling, and
  `(−d) / 2 = d · (−½)` for every `d` (a sign moves through a product: no finiteness is used). So both results are
  the one function `Cert.Lib.rbf` of the arguments:
    · LibPairwiseRbf — the function, a tile's entry, the plain program's entry (no program in it);
    · RbfTile — the kernel's stored tile, entry by entry; RbfValue — the tiles cover the array, so the kernel's run
      ends at `rbf`; RbfRef — the plain program's last value is `rbf`.
  The three frames are the programs' generated runs; the idealization rewrote nothing, so `preserves` is `True`.
-/
import proofs.«133088_j16690242912928_1_alg».proof.Defs
import proofs.«133088_j16690242912928_1_alg».proof.Proof.Gen.Kernel
import proofs.«133088_j16690242912928_1_alg».proof.Proof.Gen.Kernel.Skeleton
import proofs.«133088_j16690242912928_1_alg».proof.Proof.Gen.Kernel.Launch
import proofs.«133088_j16690242912928_1_alg».proof.Proof.Gen.Kernel.Points
import proofs.«133088_j16690242912928_1_alg».proof.Proof.Gen.Kernel.Frame
import proofs.«133088_j16690242912928_1_alg».proof.Proof.Gen.KernelIdeal
import proofs.«133088_j16690242912928_1_alg».proof.Proof.Gen.KernelIdeal.Skeleton
import proofs.«133088_j16690242912928_1_alg».proof.Proof.Gen.KernelIdeal.Launch
import proofs.«133088_j16690242912928_1_alg».proof.Proof.Gen.KernelIdeal.Points
import proofs.«133088_j16690242912928_1_alg».proof.Proof.Gen.KernelIdeal.Frame
import proofs.«133088_j16690242912928_1_alg».proof.Proof.Gen.ReferenceIdeal
import proofs.«133088_j16690242912928_1_alg».proof.Proof.Gen.Pre_finite_inputs
import proofs.«133088_j16690242912928_1_alg».proof.Proof.Gen.KernelIdeal.Value
import proofs.«133088_j16690242912928_1_alg».proof.Proof.Gen.ReferenceIdeal.Run
import proofs.«133088_j16690242912928_1_alg».proof.Proof.Gen.ReferenceIdeal.Read
import proofs.«133088_j16690242912928_1_alg».proof.Proof.RbfValue
import proofs.«133088_j16690242912928_1_alg».proof.Proof.RbfRef
import Idealize.ShloMosaic.Adequacy
import Idealize.ShloMosaic.Init

noncomputable section

namespace Cert.Proof

open Idealize.ShloMosaic Idealize.SL.Sem

/-- The kernel's program at the word level runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The plain program runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result at `rbf` of arguments that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.Whole.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
